-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4x8 : Shape := ⟨3, ![512, 4, 8]⟩
abbrev S_ : Shape := ⟨0, ![]⟩

class Facts : Prop where
  bcast_S_S512x4x8 : S_.BroadcastsInDim S512x4x8 (![] : Fin 0 → Fin S512x4x8.rank)
  reducesTo_S512x4x8_S_d0_1_2 : S512x4x8.ReducesTo [0, 1, 2] S_
  h_S_ : 0 < S_.numel

variable [Facts]

def fn {F : FTy → Type} [FloatOps F] (main_arg0 : FVec F S512x4x8 .f32) : IVec S_ 1 :=
  let main_v0 : FVec F S512x4x8 .f32 := Host.absf main_arg0
  let main_cst : FVec F S_ .f32 := constant S_ .f32 0x7F800000#32
  let main_v1 : FVec F S512x4x8 .f32 := broadcastInDim S512x4x8 ![] bcast_S_S512x4x8 main_cst
  let main_v2 : IVec S512x4x8 1 := cmpf .olt main_v0 main_v1
  let main_c : IVec S_ 1 := constantI S_ 1 1#1
  let main_v3 : IVec S_ 1 := (fun x v => Host.reduce IntOp.andi x v reducesTo_S512x4x8_S_d0_1_2 h_S_) main_v2 main_c
  main_v3
-- ==== Kernel.lean ====
abbrev S512x4x8 : Shape := ⟨3, ![512, 4, 8]⟩
abbrev S512x65536 : Shape := ⟨2, ![512, 65536]⟩
abbrev S16x4x8 : Shape := ⟨3, ![16, 4, 8]⟩
abbrev S16x65536 : Shape := ⟨2, ![16, 65536]⟩
abbrev S16x4x1 : Shape := ⟨3, ![16, 4, 1]⟩
abbrev S16x4 : Shape := ⟨2, ![16, 4]⟩
abbrev S16x1x4 : Shape := ⟨3, ![16, 1, 4]⟩
abbrev S16x4x4 : Shape := ⟨3, ![16, 4, 4]⟩
abbrev S16x16 : Shape := ⟨2, ![16, 16]⟩
abbrev S16x16x1 : Shape := ⟨3, ![16, 16, 1]⟩
abbrev S16x16x4 : Shape := ⟨3, ![16, 16, 4]⟩
abbrev S16x64 : Shape := ⟨2, ![16, 64]⟩
abbrev S16x64x1 : Shape := ⟨3, ![16, 64, 1]⟩
abbrev S16x64x4 : Shape := ⟨3, ![16, 64, 4]⟩
abbrev S16x256 : Shape := ⟨2, ![16, 256]⟩
abbrev S16x256x1 : Shape := ⟨3, ![16, 256, 1]⟩
abbrev S16x256x4 : Shape := ⟨3, ![16, 256, 4]⟩
abbrev S16x1024 : Shape := ⟨2, ![16, 1024]⟩
abbrev S16x1024x1 : Shape := ⟨3, ![16, 1024, 1]⟩
abbrev S16x1024x4 : Shape := ⟨3, ![16, 1024, 4]⟩
abbrev S16x4096 : Shape := ⟨2, ![16, 4096]⟩
abbrev S16x4096x1 : Shape := ⟨3, ![16, 4096, 1]⟩
abbrev S16x4096x4 : Shape := ⟨3, ![16, 4096, 4]⟩
abbrev S16x16384 : Shape := ⟨2, ![16, 16384]⟩
abbrev S16x16384x1 : Shape := ⟨3, ![16, 16384, 1]⟩
abbrev S16x16384x4 : Shape := ⟨3, ![16, 16384, 4]⟩

abbrev nBuf : Space → Nat
  | .hbm => 2
  | .vmem => 4
  | .smem => 0
  | _ => 0

abbrev bufTy : (tb : Table) → Fin (tcTables nBuf tb) → BufTy
  | .hbm, ⟨0, _⟩ => ⟨S512x4x8, .f32⟩
  | .hbm, ⟨1, _⟩ => ⟨S512x65536, .f32⟩
  | .local _ .vmem, ⟨0, _⟩ => ⟨S16x4x8, .f32⟩
  | .local _ .vmem, ⟨1, _⟩ => ⟨S16x4x8, .f32⟩
  | .local _ .vmem, ⟨2, _⟩ => ⟨S16x65536, .f32⟩
  | .local _ .vmem, ⟨3, _⟩ => ⟨S16x65536, .f32⟩
  | _, _ => ⟨S512x4x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x4x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16x4x8_S16x4x8_0_0_0 : ∀ a, (![0, 0, 0] : Fin 3 → Nat) a + S16x4x8.size a ≤ S16x4x8.size a
  h_S16x4x8 : 0 < S16x4x8.numel
  slices_S16x4x8_o0_0_0_S16x4x1 : S16x4x8.Slices ![0, 0, 0] S16x4x1
  shapeCasts_S16x4x1_S16x4 : S16x4x1.ShapeCasts S16x4
  slices_S16x4x8_o0_0_1_S16x4x1 : S16x4x8.Slices ![0, 0, 1] S16x4x1
  shapeCasts_S16x4_S16x4x1 : S16x4.ShapeCasts S16x4x1
  shapeCasts_S16x4_S16x1x4 : S16x4.ShapeCasts S16x1x4
  broadcasts_S16x4x1_S16x4x4 : S16x4x1.Broadcasts S16x4x4
  broadcasts_S16x1x4_S16x4x4 : S16x1x4.Broadcasts S16x4x4
  shapeCasts_S16x4x4_S16x16 : S16x4x4.ShapeCasts S16x16
  slices_S16x4x8_o0_0_2_S16x4x1 : S16x4x8.Slices ![0, 0, 2] S16x4x1
  shapeCasts_S16x16_S16x16x1 : S16x16.ShapeCasts S16x16x1
  broadcasts_S16x16x1_S16x16x4 : S16x16x1.Broadcasts S16x16x4
  broadcasts_S16x1x4_S16x16x4 : S16x1x4.Broadcasts S16x16x4
  shapeCasts_S16x16x4_S16x64 : S16x16x4.ShapeCasts S16x64
  slices_S16x4x8_o0_0_3_S16x4x1 : S16x4x8.Slices ![0, 0, 3] S16x4x1
  shapeCasts_S16x64_S16x64x1 : S16x64.ShapeCasts S16x64x1
  broadcasts_S16x64x1_S16x64x4 : S16x64x1.Broadcasts S16x64x4
  broadcasts_S16x1x4_S16x64x4 : S16x1x4.Broadcasts S16x64x4
  shapeCasts_S16x64x4_S16x256 : S16x64x4.ShapeCasts S16x256
  slices_S16x4x8_o0_0_4_S16x4x1 : S16x4x8.Slices ![0, 0, 4] S16x4x1
  shapeCasts_S16x256_S16x256x1 : S16x256.ShapeCasts S16x256x1
  broadcasts_S16x256x1_S16x256x4 : S16x256x1.Broadcasts S16x256x4
  broadcasts_S16x1x4_S16x256x4 : S16x1x4.Broadcasts S16x256x4
  shapeCasts_S16x256x4_S16x1024 : S16x256x4.ShapeCasts S16x1024
  slices_S16x4x8_o0_0_5_S16x4x1 : S16x4x8.Slices ![0, 0, 5] S16x4x1
  shapeCasts_S16x1024_S16x1024x1 : S16x1024.ShapeCasts S16x1024x1
  broadcasts_S16x1024x1_S16x1024x4 : S16x1024x1.Broadcasts S16x1024x4
  broadcasts_S16x1x4_S16x1024x4 : S16x1x4.Broadcasts S16x1024x4
  shapeCasts_S16x1024x4_S16x4096 : S16x1024x4.ShapeCasts S16x4096
  slices_S16x4x8_o0_0_6_S16x4x1 : S16x4x8.Slices ![0, 0, 6] S16x4x1
  shapeCasts_S16x4096_S16x4096x1 : S16x4096.ShapeCasts S16x4096x1
  broadcasts_S16x4096x1_S16x4096x4 : S16x4096x1.Broadcasts S16x4096x4
  broadcasts_S16x1x4_S16x4096x4 : S16x1x4.Broadcasts S16x4096x4
  shapeCasts_S16x4096x4_S16x16384 : S16x4096x4.ShapeCasts S16x16384
  slices_S16x4x8_o0_0_7_S16x4x1 : S16x4x8.Slices ![0, 0, 7] S16x4x1
  shapeCasts_S16x16384_S16x16384x1 : S16x16384.ShapeCasts S16x16384x1
  broadcasts_S16x16384x1_S16x16384x4 : S16x16384x1.Broadcasts S16x16384x4
  broadcasts_S16x1x4_S16x16384x4 : S16x1x4.Broadcasts S16x16384x4
  shapeCasts_S16x16384x4_S16x65536 : S16x16384x4.ShapeCasts S16x65536
  inb_S16x65536_S16x65536_0_0 : ∀ a, (![0, 0] : Fin 2 → Nat) a + S16x65536.size a ≤ S16x65536.size a
  h_S16x65536 : 0 < S16x65536.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x4x8.size a ≤ S512x4x8.size a
  hwx0_0 : ∀ i : grid0.Coords, EltTy.bits .f32 = 32 ∨ (Rect.block (s := S512x4x8) S16x4x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x65536.size a ≤ S512x65536.size a
  hwx0_1 : ∀ i : grid0.Coords, EltTy.bits .f32 = 32 ∨ (Rect.block (s := S512x65536) S16x65536.size (cc0_transform_1 i) (hinb0_1 i)).WholeWords (EltTy.packing .f32)

variable [Facts₀]

abbrev win0_0 : Pipeline.Window sig grid0 :=
  Pipeline.Window.ofSpec (Memref.whole main_arg0) S16x4x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x65536.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x4x8 : Shape := ⟨3, ![512, 4, 8]⟩
abbrev S512x4x1 : Shape := ⟨3, ![512, 4, 1]⟩
abbrev S512x4 : Shape := ⟨2, ![512, 4]⟩
abbrev S512x1x4 : Shape := ⟨3, ![512, 1, 4]⟩
abbrev S512x4x4 : Shape := ⟨3, ![512, 4, 4]⟩
abbrev S512x16 : Shape := ⟨2, ![512, 16]⟩
abbrev S512x16x1 : Shape := ⟨3, ![512, 16, 1]⟩
abbrev S512x16x4 : Shape := ⟨3, ![512, 16, 4]⟩
abbrev S512x64 : Shape := ⟨2, ![512, 64]⟩
abbrev S512x64x1 : Shape := ⟨3, ![512, 64, 1]⟩
abbrev S512x64x4 : Shape := ⟨3, ![512, 64, 4]⟩
abbrev S512x256 : Shape := ⟨2, ![512, 256]⟩
abbrev S512x256x1 : Shape := ⟨3, ![512, 256, 1]⟩
abbrev S512x256x4 : Shape := ⟨3, ![512, 256, 4]⟩
abbrev S512x1024 : Shape := ⟨2, ![512, 1024]⟩
abbrev S512x1024x1 : Shape := ⟨3, ![512, 1024, 1]⟩
abbrev S512x1024x4 : Shape := ⟨3, ![512, 1024, 4]⟩
abbrev S512x4096 : Shape := ⟨2, ![512, 4096]⟩
abbrev S512x4096x1 : Shape := ⟨3, ![512, 4096, 1]⟩
abbrev S512x4096x4 : Shape := ⟨3, ![512, 4096, 4]⟩
abbrev S512x16384 : Shape := ⟨2, ![512, 16384]⟩
abbrev S512x16384x1 : Shape := ⟨3, ![512, 16384, 1]⟩
abbrev S512x16384x4 : Shape := ⟨3, ![512, 16384, 4]⟩
abbrev S512x65536 : Shape := ⟨2, ![512, 65536]⟩

abbrev nBuf : Space → Nat
  | .hbm => 59
  | .vmem => 0
  | .smem => 0
  | _ => 0

abbrev bufTy : (tb : Table) → Fin (tcTables nBuf tb) → BufTy
  | .hbm, ⟨0, _⟩ => ⟨S512x4x8, .f32⟩
  | .hbm, ⟨1, _⟩ => ⟨S512x4x1, .f32⟩
  | .hbm, ⟨2, _⟩ => ⟨S512x4, .f32⟩
  | .hbm, ⟨3, _⟩ => ⟨S512x4x1, .f32⟩
  | .hbm, ⟨4, _⟩ => ⟨S512x4x1, .f32⟩
  | .hbm, ⟨5, _⟩ => ⟨S512x4, .f32⟩
  | .hbm, ⟨6, _⟩ => ⟨S512x1x4, .f32⟩
  | .hbm, ⟨7, _⟩ => ⟨S512x4x4, .f32⟩
  | .hbm, ⟨8, _⟩ => ⟨S512x4x4, .f32⟩
  | .hbm, ⟨9, _⟩ => ⟨S512x4x4, .f32⟩
  | .hbm, ⟨10, _⟩ => ⟨S512x16, .f32⟩
  | .hbm, ⟨11, _⟩ => ⟨S512x16x1, .f32⟩
  | .hbm, ⟨12, _⟩ => ⟨S512x4x1, .f32⟩
  | .hbm, ⟨13, _⟩ => ⟨S512x4, .f32⟩
  | .hbm, ⟨14, _⟩ => ⟨S512x1x4, .f32⟩
  | .hbm, ⟨15, _⟩ => ⟨S512x16x4, .f32⟩
  | .hbm, ⟨16, _⟩ => ⟨S512x16x4, .f32⟩
  | .hbm, ⟨17, _⟩ => ⟨S512x16x4, .f32⟩
  | .hbm, ⟨18, _⟩ => ⟨S512x64, .f32⟩
  | .hbm, ⟨19, _⟩ => ⟨S512x64x1, .f32⟩
  | .hbm, ⟨20, _⟩ => ⟨S512x4x1, .f32⟩
  | .hbm, ⟨21, _⟩ => ⟨S512x4, .f32⟩
  | .hbm, ⟨22, _⟩ => ⟨S512x1x4, .f32⟩
  | .hbm, ⟨23, _⟩ => ⟨S512x64x4, .f32⟩
  | .hbm, ⟨24, _⟩ => ⟨S512x64x4, .f32⟩
  | .hbm, ⟨25, _⟩ => ⟨S512x64x4, .f32⟩
  | .hbm, ⟨26, _⟩ => ⟨S512x256, .f32⟩
  | .hbm, ⟨27, _⟩ => ⟨S512x256x1, .f32⟩
  | .hbm, ⟨28, _⟩ => ⟨S512x4x1, .f32⟩
  | .hbm, ⟨29, _⟩ => ⟨S512x4, .f32⟩
  | .hbm, ⟨30, _⟩ => ⟨S512x1x4, .f32⟩
  | .hbm, ⟨31, _⟩ => ⟨S512x256x4, .f32⟩
  | .hbm, ⟨32, _⟩ => ⟨S512x256x4, .f32⟩
  | .hbm, ⟨33, _⟩ => ⟨S512x256x4, .f32⟩
  | .hbm, ⟨34, _⟩ => ⟨S512x1024, .f32⟩
  | .hbm, ⟨35, _⟩ => ⟨S512x1024x1, .f32⟩
  | .hbm, ⟨36, _⟩ => ⟨S512x4x1, .f32⟩
  | .hbm, ⟨37, _⟩ => ⟨S512x4, .f32⟩
  | .hbm, ⟨38, _⟩ => ⟨S512x1x4, .f32⟩
  | .hbm, ⟨39, _⟩ => ⟨S512x1024x4, .f32⟩
  | .hbm, ⟨40, _⟩ => ⟨S512x1024x4, .f32⟩
  | .hbm, ⟨41, _⟩ => ⟨S512x1024x4, .f32⟩
  | .hbm, ⟨42, _⟩ => ⟨S512x4096, .f32⟩
  | .hbm, ⟨43, _⟩ => ⟨S512x4096x1, .f32⟩
  | .hbm, ⟨44, _⟩ => ⟨S512x4x1, .f32⟩
  | .hbm, ⟨45, _⟩ => ⟨S512x4, .f32⟩
  | .hbm, ⟨46, _⟩ => ⟨S512x1x4, .f32⟩
  | .hbm, ⟨47, _⟩ => ⟨S512x4096x4, .f32⟩
  | .hbm, ⟨48, _⟩ => ⟨S512x4096x4, .f32⟩
  | .hbm, ⟨49, _⟩ => ⟨S512x4096x4, .f32⟩
  | .hbm, ⟨50, _⟩ => ⟨S512x16384, .f32⟩
  | .hbm, ⟨51, _⟩ => ⟨S512x16384x1, .f32⟩
  | .hbm, ⟨52, _⟩ => ⟨S512x4x1, .f32⟩
  | .hbm, ⟨53, _⟩ => ⟨S512x4, .f32⟩
  | .hbm, ⟨54, _⟩ => ⟨S512x1x4, .f32⟩
  | .hbm, ⟨55, _⟩ => ⟨S512x16384x4, .f32⟩
  | .hbm, ⟨56, _⟩ => ⟨S512x16384x4, .f32⟩
  | .hbm, ⟨57, _⟩ => ⟨S512x16384x4, .f32⟩
  | .hbm, ⟨58, _⟩ => ⟨S512x65536, .f32⟩
  | _, _ => ⟨S512x4x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩

abbrev nD : Nat := 1
abbrev τ : Topo := Topo.v7x

variable {F : FTy → Type} [FloatOps F]

class Facts₀ : Prop where
  slices_S512x4x8_S512x4x1_0_0_0 : S512x4x8.Slices ![0, 0, 0] S512x4x1
  shapeCasts_S512x4x1_S512x4 : S512x4x1.ShapeCasts S512x4
  bcast_S512x4_S512x4x1_0_1 : S512x4.BroadcastsInDim S512x4x1 (![0, 1] : Fin 2 → Fin S512x4x1.rank)
  slices_S512x4x8_S512x4x1_0_0_1 : S512x4x8.Slices ![0, 0, 1] S512x4x1
  bcast_S512x4_S512x1x4_0_2 : S512x4.BroadcastsInDim S512x1x4 (![0, 2] : Fin 2 → Fin S512x1x4.rank)
  bcast_S512x4x1_S512x4x4_0_1_2 : S512x4x1.BroadcastsInDim S512x4x4 (![0, 1, 2] : Fin 3 → Fin S512x4x4.rank)
  bcast_S512x1x4_S512x4x4_0_1_2 : S512x1x4.BroadcastsInDim S512x4x4 (![0, 1, 2] : Fin 3 → Fin S512x4x4.rank)
  shapeCasts_S512x4x4_S512x16 : S512x4x4.ShapeCasts S512x16
  bcast_S512x16_S512x16x1_0_1 : S512x16.BroadcastsInDim S512x16x1 (![0, 1] : Fin 2 → Fin S512x16x1.rank)
  slices_S512x4x8_S512x4x1_0_0_2 : S512x4x8.Slices ![0, 0, 2] S512x4x1
  bcast_S512x16x1_S512x16x4_0_1_2 : S512x16x1.BroadcastsInDim S512x16x4 (![0, 1, 2] : Fin 3 → Fin S512x16x4.rank)
  bcast_S512x1x4_S512x16x4_0_1_2 : S512x1x4.BroadcastsInDim S512x16x4 (![0, 1, 2] : Fin 3 → Fin S512x16x4.rank)
  shapeCasts_S512x16x4_S512x64 : S512x16x4.ShapeCasts S512x64
  bcast_S512x64_S512x64x1_0_1 : S512x64.BroadcastsInDim S512x64x1 (![0, 1] : Fin 2 → Fin S512x64x1.rank)
  slices_S512x4x8_S512x4x1_0_0_3 : S512x4x8.Slices ![0, 0, 3] S512x4x1
  bcast_S512x64x1_S512x64x4_0_1_2 : S512x64x1.BroadcastsInDim S512x64x4 (![0, 1, 2] : Fin 3 → Fin S512x64x4.rank)
  bcast_S512x1x4_S512x64x4_0_1_2 : S512x1x4.BroadcastsInDim S512x64x4 (![0, 1, 2] : Fin 3 → Fin S512x64x4.rank)
  shapeCasts_S512x64x4_S512x256 : S512x64x4.ShapeCasts S512x256
  bcast_S512x256_S512x256x1_0_1 : S512x256.BroadcastsInDim S512x256x1 (![0, 1] : Fin 2 → Fin S512x256x1.rank)
  slices_S512x4x8_S512x4x1_0_0_4 : S512x4x8.Slices ![0, 0, 4] S512x4x1
  bcast_S512x256x1_S512x256x4_0_1_2 : S512x256x1.BroadcastsInDim S512x256x4 (![0, 1, 2] : Fin 3 → Fin S512x256x4.rank)
  bcast_S512x1x4_S512x256x4_0_1_2 : S512x1x4.BroadcastsInDim S512x256x4 (![0, 1, 2] : Fin 3 → Fin S512x256x4.rank)
  shapeCasts_S512x256x4_S512x1024 : S512x256x4.ShapeCasts S512x1024
  bcast_S512x1024_S512x1024x1_0_1 : S512x1024.BroadcastsInDim S512x1024x1 (![0, 1] : Fin 2 → Fin S512x1024x1.rank)
  slices_S512x4x8_S512x4x1_0_0_5 : S512x4x8.Slices ![0, 0, 5] S512x4x1
  bcast_S512x1024x1_S512x1024x4_0_1_2 : S512x1024x1.BroadcastsInDim S512x1024x4 (![0, 1, 2] : Fin 3 → Fin S512x1024x4.rank)
  bcast_S512x1x4_S512x1024x4_0_1_2 : S512x1x4.BroadcastsInDim S512x1024x4 (![0, 1, 2] : Fin 3 → Fin S512x1024x4.rank)
  shapeCasts_S512x1024x4_S512x4096 : S512x1024x4.ShapeCasts S512x4096
  bcast_S512x4096_S512x4096x1_0_1 : S512x4096.BroadcastsInDim S512x4096x1 (![0, 1] : Fin 2 → Fin S512x4096x1.rank)
  slices_S512x4x8_S512x4x1_0_0_6 : S512x4x8.Slices ![0, 0, 6] S512x4x1
  bcast_S512x4096x1_S512x4096x4_0_1_2 : S512x4096x1.BroadcastsInDim S512x4096x4 (![0, 1, 2] : Fin 3 → Fin S512x4096x4.rank)
  bcast_S512x1x4_S512x4096x4_0_1_2 : S512x1x4.BroadcastsInDim S512x4096x4 (![0, 1, 2] : Fin 3 → Fin S512x4096x4.rank)
  shapeCasts_S512x4096x4_S512x16384 : S512x4096x4.ShapeCasts S512x16384
  bcast_S512x16384_S512x16384x1_0_1 : S512x16384.BroadcastsInDim S512x16384x1 (![0, 1] : Fin 2 → Fin S512x16384x1.rank)
  slices_S512x4x8_S512x4x1_0_0_7 : S512x4x8.Slices ![0, 0, 7] S512x4x1
  bcast_S512x16384x1_S512x16384x4_0_1_2 : S512x16384x1.BroadcastsInDim S512x16384x4 (![0, 1, 2] : Fin 3 → Fin S512x16384x4.rank)
  bcast_S512x1x4_S512x16384x4_0_1_2 : S512x1x4.BroadcastsInDim S512x16384x4 (![0, 1, 2] : Fin 3 → Fin S512x16384x4.rank)
  shapeCasts_S512x16384x4_S512x65536 : S512x16384x4.ShapeCasts S512x65536

variable [Facts₀]

class Facts : Prop extends Facts₀ where

variable [Facts]
-- ==== Proof.DigitProduct.lean ====
/-
  The nested outer product of the columns of a batch of 4 × 8 matrices, read at one index.

  Fix a row `r` of the batch. Column `d` of the row's matrix is the 4-vector `x[r, ·, d]`. The outer product of
  columns `0 … d`, flattened so that the LAST column's coordinate varies fastest, has `4^(d+1)` entries: position
  `k`, written in base 4 as `k = (m₀ m₁ … m_d)₄` with `m₀` the most significant digit, holds the left-nested product

      ((x[r, m₀, 0] · x[r, m₁, 1]) · x[r, m₂, 2]) · … · x[r, m_d, d].

  Peeling the least significant digit gives the recursion `chain`: the entry at `k` is the entry of the product of
  columns `0 … d-1` at `k / 4`, times `x[r, k % 4, d]`. The extended reals' product is used exactly as nested: no
  reassociation and no commutation happens anywhere, so no finiteness is needed.

  One STEP of the product — from the flattened product `cp : [R, K]` of the earlier columns to the flattened
  product `[R, 4K]` with column `d` — is spelt in two ways by the two programs: with vector operations (a unit
  axis appended to `cp`, a unit axis inserted into the column, both broadcast to `[R, K, 4]`, multiplied, and
  flattened by a shape cast), and with host operations (the same with `broadcast_in_dim`). Each spelling read at
  `(r, q)` is `cp (r, q / 4) · x[r, q % 4, d]`: row-major position `q` of the flattened `[K, 4]` is `(q / 4, q % 4)`.
-/
import Idealize.ShloMosaic.PureOps.Ideal
import Idealize.ShloMosaic.Lib.ValueIdx
import Idealize.ShloMosaic.Lib.Pipeline.Value

noncomputable section

namespace Cert.DigitProduct

open Idealize.ShloMosaic Idealize.ShloMosaic.ValueIdx

/-! ## The specification -/

/-- `x[r, k % 4, d]`: the entry of column `d` of row `r`'s matrix that the least significant base-4 digit of `k`
    selects (the column number is read modulo 8, so that the definition needs no bound on `d`). -/
def entry {R : Nat} (x : (⟨3, ![R, 4, 8]⟩ : Shape).Idx → EReal) (r : Fin R) (k d : Nat) : EReal :=
  x (ix3 r ⟨k % 4, Nat.mod_lt _ (by norm_num)⟩ ⟨d % 8, Nat.mod_lt _ (by norm_num)⟩)

/-- For a column number below 8 the modulus is idle. -/
theorem entry_eq {R : Nat} (x : (⟨3, ![R, 4, 8]⟩ : Shape).Idx → EReal) (r : Fin R) (k d : Nat) (hd : d < 8) :
    entry x r k d = x (ix3 r ⟨k % 4, Nat.mod_lt _ (by norm_num)⟩ ⟨d, hd⟩) :=
  congrArg x (congrArg (ix3 r ⟨k % 4, Nat.mod_lt _ (by norm_num)⟩) (Fin.ext (Nat.mod_eq_of_lt hd)))

/-- The flattened outer product of columns `0 … d` of row `r` at position `k`: the left-nested product over the
    base-4 digits of `k`, the last column on the least significant digit. -/
def chain {R : Nat} (x : (⟨3, ![R, 4, 8]⟩ : Shape).Idx → EReal) (r : Fin R) : Nat → Nat → EReal
  | 0, k => entry x r k 0
  | d + 1, k => chain x r d (k / 4) * entry x r k (d + 1)

/-- The whole result: row `b`, position `k` of the product of all eight columns. -/
def product {R : Nat} (x : (⟨3, ![R, 4, 8]⟩ : Shape).Idx → EReal) : (⟨2, ![R, 65536]⟩ : Shape).Idx → EReal :=
  fun j => chain x (j 0) 7 (j 1).val

theorem product_apply {R : Nat} (x : (⟨3, ![R, 4, 8]⟩ : Shape).Idx → EReal) (b : Fin R) (k : Fin 65536) :
    product x (ix2 b k) = chain x b 7 k.val := rfl

/-! ## Column 0, flattened: the start of the recursion (the same operations in both programs) -/

/-- Column `0` sliced out of the batch and its unit axis dropped, read at `(r, k)`. -/
theorem column0_apply {R : Nat} (x : FVec Ideal ⟨3, ![R, 4, 8]⟩ .f32)
    (h1 : (⟨3, ![R, 4, 8]⟩ : Shape).Slices ![0, 0, 0] ⟨3, ![R, 4, 1]⟩)
    (h2 : (⟨3, ![R, 4, 1]⟩ : Shape).ShapeCasts ⟨2, ![R, 4]⟩) (r : Fin R) (k : Fin 4) :
    shapeCast ⟨2, ![R, 4]⟩ (extractStridedSlice ⟨3, ![R, 4, 1]⟩ ![0, 0, 0] x h1) h2 (ix2 r k) = chain x r 0 k.val := by
  refine (shapeCast_apply _ h2 (ix2 r k) (ix3 r k (0 : Fin 1)) ?_).trans ?_
  · rw [Shape.rowMajor_val_three, Shape.rowMajor_val_two]
    show (r.val * 4 + k.val) * 1 + 0 = r.val * 4 + k.val
    omega
  refine (extractStridedSlice_apply ![0, 0, 0] x h1 _ (ix3 r k (0 : Fin 8)) ?_).trans ?_
  · intro a
    match a with
    | ⟨0, _⟩ => show r.val = 0 + r.val; omega
    | ⟨1, _⟩ => show k.val = 0 + k.val; omega
    | ⟨2, _⟩ => show 0 = 0 + 0; rfl
  · show _ = entry x r k.val 0
    rw [entry_eq x r k.val 0 (by norm_num)]
    exact congrArg x (congrArg (fun a => ix3 r a (0 : Fin 8)) (Fin.ext (Nat.mod_eq_of_lt k.isLt).symm))

/-- Column `d` sliced out of the batch, its unit axis dropped, read at `(r, j)`. -/
theorem column_apply {R : Nat} (d : Nat) (hd : d < 8) (x : FVec Ideal ⟨3, ![R, 4, 8]⟩ .f32)
    (h1 : (⟨3, ![R, 4, 8]⟩ : Shape).Slices ![0, 0, d] ⟨3, ![R, 4, 1]⟩)
    (h2 : (⟨3, ![R, 4, 1]⟩ : Shape).ShapeCasts ⟨2, ![R, 4]⟩) (r : Fin R) (j : Fin 4) :
    shapeCast ⟨2, ![R, 4]⟩ (extractStridedSlice ⟨3, ![R, 4, 1]⟩ ![0, 0, d] x h1) h2 (ix2 r j) = x (ix3 r j ⟨d, hd⟩) := by
  refine (shapeCast_apply _ h2 (ix2 r j) (ix3 r j (0 : Fin 1)) ?_).trans ?_
  · rw [Shape.rowMajor_val_three, Shape.rowMajor_val_two]
    show (r.val * 4 + j.val) * 1 + 0 = r.val * 4 + j.val
    omega
  refine extractStridedSlice_apply ![0, 0, d] x h1 _ (ix3 r j ⟨d, hd⟩) ?_
  intro a
  match a with
  | ⟨0, _⟩ => show r.val = 0 + r.val; omega
  | ⟨1, _⟩ => show j.val = 0 + j.val; omega
  | ⟨2, _⟩ => show d = d + 0; rfl

/-! ## One step, in the vector operations' spelling -/

/-- One step of the product spelt with vector operations, read at `(r, q)`: the flattened `[K, 4]` position `q` is
    `(q / 4, q % 4)`; the left factor broadcasts `cp (r, q / 4)` along the new axis, the right factor broadcasts
    column `d`'s entry `q % 4` along the old one. -/
theorem vector_step {R K K4 : Nat} (d : Nat) (hK4 : K4 = K * 4) (hd : d < 8)
    (x : FVec Ideal ⟨3, ![R, 4, 8]⟩ .f32) (cp : FVec Ideal ⟨2, ![R, K]⟩ .f32)
    (h1 : (⟨3, ![R, 4, 8]⟩ : Shape).Slices ![0, 0, d] ⟨3, ![R, 4, 1]⟩)
    (h2 : (⟨3, ![R, 4, 1]⟩ : Shape).ShapeCasts ⟨2, ![R, 4]⟩)
    (h3 : (⟨2, ![R, K]⟩ : Shape).ShapeCasts ⟨3, ![R, K, 1]⟩)
    (h4 : (⟨2, ![R, 4]⟩ : Shape).ShapeCasts ⟨3, ![R, 1, 4]⟩)
    (h5 : (⟨3, ![R, K, 1]⟩ : Shape).Broadcasts ⟨3, ![R, K, 4]⟩)
    (h6 : (⟨3, ![R, 1, 4]⟩ : Shape).Broadcasts ⟨3, ![R, K, 4]⟩)
    (h7 : (⟨3, ![R, K, 4]⟩ : Shape).ShapeCasts ⟨2, ![R, K4]⟩)
    (r : Fin R) (q : Fin K4) (hq : q.val / 4 < K) :
    shapeCast ⟨2, ![R, K4]⟩ (mulf (F := Ideal) (φ := .f32) (broadcastTo ⟨3, ![R, K, 4]⟩ (shapeCast ⟨3, ![R, K, 1]⟩ cp h3) h5)
        (broadcastTo ⟨3, ![R, K, 4]⟩ (shapeCast ⟨3, ![R, 1, 4]⟩
          (shapeCast ⟨2, ![R, 4]⟩ (extractStridedSlice ⟨3, ![R, 4, 1]⟩ ![0, 0, d] x h1) h2) h4) h6)) h7 (ix2 r q)
      = cp (ix2 r ⟨q.val / 4, hq⟩) * entry x r q.val d := by
  have hm : q.val % 4 < 4 := Nat.mod_lt _ (by norm_num)
  have hr := r.isLt
  refine (shapeCast_apply _ h7 (ix2 r q) (ix3 r ⟨q.val / 4, hq⟩ ⟨q.val % 4, hm⟩) ?_).trans ?_
  · rw [Shape.rowMajor_val_three, Shape.rowMajor_val_two]
    show (r.val * K + q.val / 4) * 4 + q.val % 4 = r.val * K4 + q.val
    have e : r.val * K4 = r.val * K * 4 := by rw [hK4, Nat.mul_assoc]
    omega
  refine (mulf_apply _ _ _).trans (congrArg₂ (· * ·) ?_ ?_)
  · -- the earlier columns' product, a unit axis appended, broadcast along it
    refine (broadcastTo_apply _ h5 _ (ix3 r ⟨q.val / 4, hq⟩ (0 : Fin 1)) ?_).trans ?_
    · intro a
      match a with
      | ⟨0, _⟩ => show r.val = if R = 1 then 0 else r.val; split <;> omega
      | ⟨1, _⟩ => show q.val / 4 = if K = 1 then 0 else q.val / 4; split <;> omega
      | ⟨2, _⟩ => show 0 = if 1 = 1 then 0 else q.val % 4; rfl
    refine shapeCast_apply cp h3 _ (ix2 r ⟨q.val / 4, hq⟩) ?_
    rw [Shape.rowMajor_val_three, Shape.rowMajor_val_two]
    show r.val * K + q.val / 4 = (r.val * K + q.val / 4) * 1 + 0
    omega
  · -- column `d`, a unit axis inserted before its own, broadcast along it
    refine (broadcastTo_apply _ h6 _ (ix3 r (0 : Fin 1) ⟨q.val % 4, hm⟩) ?_).trans ?_
    · intro a
      match a with
      | ⟨0, _⟩ => show r.val = if R = 1 then 0 else r.val; split <;> omega
      | ⟨1, _⟩ => show 0 = if 1 = 1 then 0 else q.val / 4; rfl
      | ⟨2, _⟩ => show q.val % 4 = if 4 = 1 then 0 else q.val % 4; rfl
    refine (shapeCast_apply _ h4 _ (ix2 r ⟨q.val % 4, hm⟩) ?_).trans ?_
    · rw [Shape.rowMajor_val_three, Shape.rowMajor_val_two]
      show r.val * 4 + q.val % 4 = (r.val * 1 + 0) * 4 + q.val % 4
      omega
    rw [entry_eq x r q.val d hd]
    exact column_apply d hd x h1 h2 r ⟨q.val % 4, hm⟩

/-! ## One step, in the host operations' spelling -/

/-- One step of the product spelt with host operations (`broadcast_in_dim` for both the unit axes and the
    stretching), read at `(r, q)`. -/
theorem host_step {R K K4 : Nat} (d : Nat) (hK4 : K4 = K * 4) (hd : d < 8)
    (x : FVec Ideal ⟨3, ![R, 4, 8]⟩ .f32) (cp : FVec Ideal ⟨2, ![R, K]⟩ .f32)
    (h1 : (⟨3, ![R, 4, 8]⟩ : Shape).Slices ![0, 0, d] ⟨3, ![R, 4, 1]⟩)
    (h2 : (⟨3, ![R, 4, 1]⟩ : Shape).ShapeCasts ⟨2, ![R, 4]⟩)
    (h3 : (⟨2, ![R, K]⟩ : Shape).BroadcastsInDim ⟨3, ![R, K, 1]⟩ ![0, 1])
    (h4 : (⟨2, ![R, 4]⟩ : Shape).BroadcastsInDim ⟨3, ![R, 1, 4]⟩ ![0, 2])
    (h5 : (⟨3, ![R, K, 1]⟩ : Shape).BroadcastsInDim ⟨3, ![R, K, 4]⟩ ![0, 1, 2])
    (h6 : (⟨3, ![R, 1, 4]⟩ : Shape).BroadcastsInDim ⟨3, ![R, K, 4]⟩ ![0, 1, 2])
    (h7 : (⟨3, ![R, K, 4]⟩ : Shape).ShapeCasts ⟨2, ![R, K4]⟩)
    (r : Fin R) (q : Fin K4) (hq : q.val / 4 < K) :
    shapeCast ⟨2, ![R, K4]⟩ (mulf (F := Ideal) (φ := .f32)
        (broadcastInDim ⟨3, ![R, K, 4]⟩ ![0, 1, 2] h5 (broadcastInDim ⟨3, ![R, K, 1]⟩ ![0, 1] h3 cp))
        (broadcastInDim ⟨3, ![R, K, 4]⟩ ![0, 1, 2] h6 (broadcastInDim ⟨3, ![R, 1, 4]⟩ ![0, 2] h4
          (shapeCast ⟨2, ![R, 4]⟩ (extractStridedSlice ⟨3, ![R, 4, 1]⟩ ![0, 0, d] x h1) h2)))) h7 (ix2 r q)
      = cp (ix2 r ⟨q.val / 4, hq⟩) * entry x r q.val d := by
  have hm : q.val % 4 < 4 := Nat.mod_lt _ (by norm_num)
  have hr := r.isLt
  refine (shapeCast_apply _ h7 (ix2 r q) (ix3 r ⟨q.val / 4, hq⟩ ⟨q.val % 4, hm⟩) ?_).trans ?_
  · rw [Shape.rowMajor_val_three, Shape.rowMajor_val_two]
    show (r.val * K + q.val / 4) * 4 + q.val % 4 = r.val * K4 + q.val
    have e : r.val * K4 = r.val * K * 4 := by rw [hK4, Nat.mul_assoc]
    omega
  refine (mulf_apply _ _ _).trans (congrArg₂ (· * ·) ?_ ?_)
  · refine (broadcastInDim_apply ![0, 1, 2] h5 _ _ (ix3 r ⟨q.val / 4, hq⟩ (0 : Fin 1)) ?_).trans ?_
    · intro a
      match a with
      | ⟨0, _⟩ => show r.val = if R = 1 then 0 else r.val; split <;> omega
      | ⟨1, _⟩ => show q.val / 4 = if K = 1 then 0 else q.val / 4; split <;> omega
      | ⟨2, _⟩ => show 0 = if 1 = 1 then 0 else q.val % 4; rfl
    refine broadcastInDim_apply ![0, 1] h3 cp _ (ix2 r ⟨q.val / 4, hq⟩) ?_
    intro a
    match a with
    | ⟨0, _⟩ => show r.val = if R = 1 then 0 else r.val; split <;> omega
    | ⟨1, _⟩ => show q.val / 4 = if K = 1 then 0 else q.val / 4; split <;> omega
  · refine (broadcastInDim_apply ![0, 1, 2] h6 _ _ (ix3 r (0 : Fin 1) ⟨q.val % 4, hm⟩) ?_).trans ?_
    · intro a
      match a with
      | ⟨0, _⟩ => show r.val = if R = 1 then 0 else r.val; split <;> omega
      | ⟨1, _⟩ => show 0 = if 1 = 1 then 0 else q.val / 4; rfl
      | ⟨2, _⟩ => show q.val % 4 = if 4 = 1 then 0 else q.val % 4; rfl
    refine (broadcastInDim_apply ![0, 2] h4 _ _ (ix2 r ⟨q.val % 4, hm⟩) ?_).trans ?_
    · intro a
      match a with
      | ⟨0, _⟩ => show r.val = if R = 1 then 0 else r.val; split <;> omega
      | ⟨1, _⟩ => show q.val % 4 = if 4 = 1 then 0 else q.val % 4; rfl
    rw [entry_eq x r q.val d hd]
    exact column_apply d hd x h1 h2 r ⟨q.val % 4, hm⟩

/-! ## The steps composed: each program's value after column `d + 1` from its value after column `d` -/

/-- If `cp` is the flattened product of columns `0 … d`, the vector-operation step with column `d + 1` is the
    flattened product of columns `0 … d + 1`. -/
theorem vector_step_chain {R K K4 : Nat} (d : Nat) (hK4 : K4 = K * 4) (hd : d + 1 < 8)
    (x : FVec Ideal ⟨3, ![R, 4, 8]⟩ .f32) (cp : FVec Ideal ⟨2, ![R, K]⟩ .f32)
    (h1 : (⟨3, ![R, 4, 8]⟩ : Shape).Slices ![0, 0, d + 1] ⟨3, ![R, 4, 1]⟩)
    (h2 : (⟨3, ![R, 4, 1]⟩ : Shape).ShapeCasts ⟨2, ![R, 4]⟩)
    (h3 : (⟨2, ![R, K]⟩ : Shape).ShapeCasts ⟨3, ![R, K, 1]⟩)
    (h4 : (⟨2, ![R, 4]⟩ : Shape).ShapeCasts ⟨3, ![R, 1, 4]⟩)
    (h5 : (⟨3, ![R, K, 1]⟩ : Shape).Broadcasts ⟨3, ![R, K, 4]⟩)
    (h6 : (⟨3, ![R, 1, 4]⟩ : Shape).Broadcasts ⟨3, ![R, K, 4]⟩)
    (h7 : (⟨3, ![R, K, 4]⟩ : Shape).ShapeCasts ⟨2, ![R, K4]⟩)
    (hcp : ∀ (r : Fin R) (k : Fin K), cp (ix2 r k) = chain x r d k.val) (r : Fin R) (q : Fin K4) :
    shapeCast ⟨2, ![R, K4]⟩ (mulf (F := Ideal) (φ := .f32) (broadcastTo ⟨3, ![R, K, 4]⟩ (shapeCast ⟨3, ![R, K, 1]⟩ cp h3) h5)
        (broadcastTo ⟨3, ![R, K, 4]⟩ (shapeCast ⟨3, ![R, 1, 4]⟩
          (shapeCast ⟨2, ![R, 4]⟩ (extractStridedSlice ⟨3, ![R, 4, 1]⟩ ![0, 0, d + 1] x h1) h2) h4) h6)) h7 (ix2 r q)
      = chain x r (d + 1) q.val := by
  have hq : q.val / 4 < K := by have := q.isLt; omega
  refine (vector_step (d + 1) hK4 hd x cp h1 h2 h3 h4 h5 h6 h7 r q hq).trans ?_
  rw [hcp]
  rfl

/-- The same for the host-operation step. -/
theorem host_step_chain {R K K4 : Nat} (d : Nat) (hK4 : K4 = K * 4) (hd : d + 1 < 8)
    (x : FVec Ideal ⟨3, ![R, 4, 8]⟩ .f32) (cp : FVec Ideal ⟨2, ![R, K]⟩ .f32)
    (h1 : (⟨3, ![R, 4, 8]⟩ : Shape).Slices ![0, 0, d + 1] ⟨3, ![R, 4, 1]⟩)
    (h2 : (⟨3, ![R, 4, 1]⟩ : Shape).ShapeCasts ⟨2, ![R, 4]⟩)
    (h3 : (⟨2, ![R, K]⟩ : Shape).BroadcastsInDim ⟨3, ![R, K, 1]⟩ ![0, 1])
    (h4 : (⟨2, ![R, 4]⟩ : Shape).BroadcastsInDim ⟨3, ![R, 1, 4]⟩ ![0, 2])
    (h5 : (⟨3, ![R, K, 1]⟩ : Shape).BroadcastsInDim ⟨3, ![R, K, 4]⟩ ![0, 1, 2])
    (h6 : (⟨3, ![R, 1, 4]⟩ : Shape).BroadcastsInDim ⟨3, ![R, K, 4]⟩ ![0, 1, 2])
    (h7 : (⟨3, ![R, K, 4]⟩ : Shape).ShapeCasts ⟨2, ![R, K4]⟩)
    (hcp : ∀ (r : Fin R) (k : Fin K), cp (ix2 r k) = chain x r d k.val) (r : Fin R) (q : Fin K4) :
    shapeCast ⟨2, ![R, K4]⟩ (mulf (F := Ideal) (φ := .f32)
        (broadcastInDim ⟨3, ![R, K, 4]⟩ ![0, 1, 2] h5 (broadcastInDim ⟨3, ![R, K, 1]⟩ ![0, 1] h3 cp))
        (broadcastInDim ⟨3, ![R, K, 4]⟩ ![0, 1, 2] h6 (broadcastInDim ⟨3, ![R, 1, 4]⟩ ![0, 2] h4
          (shapeCast ⟨2, ![R, 4]⟩ (extractStridedSlice ⟨3, ![R, 4, 1]⟩ ![0, 0, d + 1] x h1) h2)))) h7 (ix2 r q)
      = chain x r (d + 1) q.val := by
  have hq : q.val / 4 < K := by have := q.isLt; omega
  refine (host_step (d + 1) hK4 hd x cp h1 h2 h3 h4 h5 h6 h7 r q hq).trans ?_
  rw [hcp]
  rfl

/-! ## The product of a row depends on that row only -/

/-- Two batches whose rows `r` and `r'` hold the same 4 × 8 matrix have the same products on those rows. -/
theorem chain_congr {R R' : Nat} (x : (⟨3, ![R, 4, 8]⟩ : Shape).Idx → EReal) (x' : (⟨3, ![R', 4, 8]⟩ : Shape).Idx → EReal)
    (r : Fin R) (r' : Fin R') (h : ∀ (j : Fin 4) (d : Fin 8), x (ix3 r j d) = x' (ix3 r' j d)) :
    ∀ d k : Nat, chain x r d k = chain x' r' d k := by
  have he : ∀ k d : Nat, entry x r k d = entry x' r' k d := fun k d => h _ _
  intro d
  induction d with
  | zero => intro k; exact he k 0
  | succ d ih =>
    intro k
    show chain x r d (k / 4) * entry x r k (d + 1) = chain x' r' d (k / 4) * entry x' r' k (d + 1)
    rw [ih, he]

end Cert.DigitProduct

end
-- ==== Proof.KernelBlock.lean ====
/-
  What the kernel body stores, read at one index of its output block.

  The body loads its `[16, 4, 8]` input block `v`, starts from column 0 flattened (`[16, 4]`), and seven times appends
  a column: the running product `[16, K]` gets a trailing unit axis, the next column a unit axis before its own,
  both are broadcast to `[16, K, 4]`, multiplied, and flattened to `[16, 4K]`. After the seventh step the stored
  `[16, 65536]` value at `(r, q)` is the digit product of row `r` of the block at position `q`: the seven steps are
  seven instances of the one step lemma, peeled from the outside in.
-/
import proofs.«143962_j66692252172661_1_alg».proof.Proof.Gen.KernelIdeal.Skeleton
import proofs.«143962_j66692252172661_1_alg».proof.Proof.DigitProduct

noncomputable section

namespace Cert.KernelIdeal.Block

open Cert.KernelIdeal Cert.KernelIdeal.Gen Idealize.ShloMosaic Idealize.ShloMosaic.ValueIdx Cert.DigitProduct

/-- The value the body stores, at row `r` and position `q` of the block: the product of the eight columns of row
    `r` of the loaded block over the base-4 digits of `q`. -/
theorem stored_apply (v : Vec Ideal S16x4x8 .f32) (r : Fin 16) (q : Fin 65536) :
    k0_pay1 (F := Ideal) (k0_pay2 v) (k0_pay3 v) (ix2 r q) = chain v r 7 q.val := by
  unfold k0_pay1 k0_pay2 k0_pay3
  exact vector_step_chain (R := 16) (K := 16384) (K4 := 65536) 6 (by norm_num) (by norm_num) v _ _ _ _ _ _ _ _
    (fun r k => vector_step_chain (R := 16) (K := 4096) (K4 := 16384) 5 (by norm_num) (by norm_num) v _ _ _ _ _ _ _ _
    (fun r k => vector_step_chain (R := 16) (K := 1024) (K4 := 4096) 4 (by norm_num) (by norm_num) v _ _ _ _ _ _ _ _
    (fun r k => vector_step_chain (R := 16) (K := 256) (K4 := 1024) 3 (by norm_num) (by norm_num) v _ _ _ _ _ _ _ _
    (fun r k => vector_step_chain (R := 16) (K := 64) (K4 := 256) 2 (by norm_num) (by norm_num) v _ _ _ _ _ _ _ _
    (fun r k => vector_step_chain (R := 16) (K := 16) (K4 := 64) 1 (by norm_num) (by norm_num) v _ _ _ _ _ _ _ _
    (fun r k => vector_step_chain (R := 16) (K := 4) (K4 := 16) 0 (by norm_num) (by norm_num) v _ _ _ _ _ _ _ _
    (fun r k => column0_apply v _ _ r k) r k) r k) r k) r k) r k) r k) r q

end Cert.KernelIdeal.Block

end
-- ==== Proof.KernelProduct.lean ====
/-
  From blocks to the array: the kernel's result array is the digit product of its argument.

  The grid has 32 points. Point `t` stages rows `16t … 16t + 15` of the `[512, 4, 8]` argument (block index
  `(t, 0, 0)`) and writes back rows `16t … 16t + 15` of the `[512, 65536]` result (block index `(t, 0)`). The body's
  stored value at `(r, q)` is the digit product of row `r` of the staged block, and a row's product depends on that
  row only, so what point `t` writes back is block `t` of the digit product of the WHOLE argument. The 32 blocks
  cover the result array (row `b` lies in block `b / 16`), so the array after the run is that function.
-/
import proofs.«143962_j66692252172661_1_alg».proof.Proof.Gen.KernelIdeal.Value
import proofs.«143962_j66692252172661_1_alg».proof.Proof.KernelBlock

noncomputable section

namespace Cert.KernelIdeal.Product

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.DigitProduct

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps over the grid: point `t`'s input block is block row `t` of the argument and its output
    block is block row `t` of the result. -/
theorem block_rows : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- Row `r` of the block staged at point `t` is row `16t + r` of the argument. -/
theorem staged_row (c : Dev nD) (t : Fin cfg0.N) (r : Fin 16) (b : Fin 512) (hb : b.val = 16 * t.val + r.val)
    (j : Fin 4) (d : Fin 8) :
    (iblk m c 0 t : Vec Ideal S16x4x8 .f32) (ix3 r j d) = (V m c main_arg0 : S512x4x8.Idx → EReal) (ix3 b j d) := by
  obtain ⟨e0, e1, e2, -, -⟩ := block_rows t
  unfold iblk
  rw [View.read_apply]
  show V m c main_arg0 _ = V m c main_arg0 _
  congr 1
  funext a
  apply Fin.ext
  match a with
  | ⟨0, _⟩ => show win0_0.index t (0 : Fin 3) * 16 + 1 * r.val = b.val; rw [e0, hb]; omega
  | ⟨1, _⟩ => show win0_0.index t (1 : Fin 3) * 4 + 1 * j.val = j.val; rw [e1]; omega
  | ⟨2, _⟩ => show win0_0.index t (2 : Fin 3) * 8 + 1 * d.val = d.val; rw [e2]; omega

/-- The body's stored value on a block whose row `r` is row `b` of an array, at `(r, q)`: the array's digit product
    at `(b, q)`. -/
theorem stored_row (xb : Vec Ideal S16x4x8 .f32) (xa : S512x4x8.Idx → EReal) (r : Fin 16) (q : Fin 65536) (b : Fin 512)
    (hrow : ∀ (j : Fin 4) (d : Fin 8), xb (ix3 r j d) = xa (ix3 b j d)) :
    k0_pay1 (F := Ideal) (k0_pay2 xb) (k0_pay3 xb) (ix2 r q) = product (R := 512) xa (ix2 b q) :=
  (Block.stored_apply xb r q).trans ((chain_congr xb xa r b hrow 7 q.val).trans (product_apply xa b q).symm)

/-- WHAT POINT `t` WRITES BACK is block `t` of the digit product of the argument as the region finds it. -/
theorem flushed_eq (c : Dev nD) (t : Fin cfg0.N) :
    (dats m 0 c).flushed 1 t
      = ((cfg0.win 1).blk t).view.read (Elt Ideal) (product (R := 512) (V m c main_arg0 : S512x4x8.Idx → EReal)) := by
  rw [Value.flushed1]
  unfold out0_1
  rw [View.canon_unit_zero zero2]
  simp only [View.ld_unit_zero (S := S16x4x8) zero3]
  obtain ⟨-, -, -, e3, e4⟩ := block_rows t
  have ht : t.val < 32 := Nat.lt_of_lt_of_eq t.isLt (show cfg0.N = 32 from N_0)
  funext y
  have hy0 : (y 0).val < 16 := (y 0).isLt
  have hy1 : (y 1).val < 65536 := (y 1).isLt
  show k0_pay1 (F := Ideal) (k0_pay2 (iblk m c 0 t)) (k0_pay3 (iblk m c 0 t)) (ix2 (⟨(y 0).val, hy0⟩ : Fin 16) (⟨(y 1).val, hy1⟩ : Fin 65536))
    = product (R := 512) (V m c main_arg0 : S512x4x8.Idx → EReal) (((cfg0.win 1).blk t).view.emb y)
  have eR : ((cfg0.win 1).blk t).view.emb y
      = ix2 (⟨16 * t.val + (y 0).val, by omega⟩ : Fin 512) (⟨(y 1).val, hy1⟩ : Fin 65536) := by
    funext a
    apply Fin.ext
    match a with
    | ⟨0, _⟩ => show win0_1.index t (0 : Fin 2) * 16 + 1 * (y 0).val = 16 * t.val + (y 0).val; rw [e3]; omega
    | ⟨1, _⟩ => show win0_1.index t (1 : Fin 2) * 65536 + 1 * (y 1).val = (y 1).val; rw [e4]; omega
  rw [eR]
  exact stored_row (iblk m c 0 t) (V m c main_arg0) _ _ _ (fun j d => staged_row m c t _ _ rfl j d)

/-- An index of the result array is in point `t`'s block iff each coordinate is in the block's range on its axis. -/
theorem mem_blk (t : Fin cfg0.N) (i : S512x65536.Idx) :
    i ∈ ((cfg0.win 1).blk t).view.set ↔ ∀ a : Fin 2, win0_1.index t a * S16x65536.size a ≤ (i a).val ∧ (i a).val < win0_1.index t a * S16x65536.size a + S16x65536.size a := by
  show i ∈ ((View.whole main_v0).slice (win0_1.rect t)).set ↔ _
  rw [View.set_slice_whole, Rect.mem_set_unit]
  exact Iff.rfl

/-- Every index of the result array is in some point's block: row `b` in block `b / 16`. -/
theorem covered (i : S512x65536.Idx) : ∃ t : Fin cfg0.N, (cfg0.win 1).flush t = true ∧ i ∈ ((cfg0.win 1).blk t).view.set := by
  have hi0 : (i 0).val < 512 := (i 0).isLt
  have hi1 : (i 1).val < 65536 := (i 1).isLt
  have hN : cfg0.N = 32 := N_0
  let t : Fin cfg0.N := ⟨(i 0).val / 16, by rw [hN]; omega⟩
  obtain ⟨-, -, -, e3, e4⟩ := block_rows t
  have e3' : win0_1.index t (0 : Fin 2) = (i 0).val / 16 := e3
  refine ⟨t, flush0_1 t, ?_⟩
  rw [mem_blk]
  intro a
  match a with
  | ⟨0, _⟩ => show win0_1.index t (0 : Fin 2) * 16 ≤ (i 0).val ∧ (i 0).val < win0_1.index t (0 : Fin 2) * 16 + 16; omega
  | ⟨1, _⟩ => show win0_1.index t (1 : Fin 2) * 65536 ≤ (i 1).val ∧ (i 1).val < win0_1.index t (1 : Fin 2) * 65536 + 65536; omega

/-- THE ARRAY after the run: the digit product of the argument. -/
theorem final (c : Dev nD) :
    (dats m 0 c).arrAt 1 cfg0.N = product (R := 512) (m ((c : Thread nD τ).loc main_arg0) : S512x4x8.Idx → EReal) :=
  ((dats m 0 c).arrAt_eq_of_cover 1 (product (R := 512) (V m c main_arg0 : S512x4x8.Idx → EReal))
    (fun t _ => flushed_eq m c t) covered).trans (by rw [V_main_arg0])

/-- The frame run re-posted: the result array at the digit product of the argument, the argument unchanged. -/
theorem run : θ_run defs (onTc (τ := τ) (main (F := Ideal))) ⟨m, fun _ => 0, ρ⟩ fun r => ∀ c : Dev nD,
      r.2.mem ((c : Thread nD τ).loc main_v0) = product (R := 512) (m ((c : Thread nD τ).loc main_arg0) : S512x4x8.Idx → EReal)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Product

end
-- ==== Proof.ReferenceProduct.lean ====
/-
  The reference's result is the digit product of the whole batch.

  The host program slices column 0 out of the `[512, 4, 8]` argument and flattens it, then seven times appends a
  column with `broadcast_in_dim`, a multiplication and a reshape — the host spelling of the one step. Its result
  term, read at `(b, k)`, is the product of the eight columns of row `b` over the base-4 digits of `k`.
-/
import proofs.«143962_j66692252172661_1_alg».proof.Proof.Gen.ReferenceIdeal.Run
import proofs.«143962_j66692252172661_1_alg».proof.Proof.DigitProduct

noncomputable section

namespace Cert.ReferenceIdeal.Product

open Cert.ReferenceIdeal Cert.ReferenceIdeal.Gen Idealize.ShloMosaic Idealize.ShloMosaic.TcCoe Idealize.SL.Sem
open Idealize.ShloMosaic.ValueIdx Cert.DigitProduct

/-- Every weakly fair execution of the reference ends with its result array at the digit product of its argument,
    the argument unchanged: the generated run, its composed term read index by index through the seven steps. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57) = product (R := 512) (m ((c.tc : Thread nD τ).loc main_arg0))
      ∧ r.2.mem ((c.tc : Thread nD τ).loc main_arg0) = m ((c.tc : Thread nD τ).loc main_arg0) := by
  refine (θ_run defs _ _).mono (fun _ h c => ⟨(h c).1.trans ?_, (h c).2⟩) (Cert.ReferenceIdeal.Value.run (F := Ideal) m ρ)
  generalize m ((c.tc : Thread nD τ).loc main_arg0) = x
  funext j
  obtain ⟨b, q, rfl⟩ : ∃ (b : Fin 512) (q : Fin 65536), j = ix2 b q := ⟨j 0, j 1, eq_ix2 j⟩
  rw [product_apply]
  exact host_step_chain (R := 512) (K := 16384) (K4 := 65536) 6 (by norm_num) (by norm_num) x _ _ _ _ _ _ _ _
    (fun r k => host_step_chain (R := 512) (K := 4096) (K4 := 16384) 5 (by norm_num) (by norm_num) x _ _ _ _ _ _ _ _
    (fun r k => host_step_chain (R := 512) (K := 1024) (K4 := 4096) 4 (by norm_num) (by norm_num) x _ _ _ _ _ _ _ _
    (fun r k => host_step_chain (R := 512) (K := 256) (K4 := 1024) 3 (by norm_num) (by norm_num) x _ _ _ _ _ _ _ _
    (fun r k => host_step_chain (R := 512) (K := 64) (K4 := 256) 2 (by norm_num) (by norm_num) x _ _ _ _ _ _ _ _
    (fun r k => host_step_chain (R := 512) (K := 16) (K4 := 64) 1 (by norm_num) (by norm_num) x _ _ _ _ _ _ _ _
    (fun r k => host_step_chain (R := 512) (K := 4) (K4 := 16) 0 (by norm_num) (by norm_num) x _ _ _ _ _ _ _ _
    (fun r k => column0_apply x _ _ r k) r k) r k) r k) r k) r k) r k) b q

end Cert.ReferenceIdeal.Product

end
-- ==== Proof.lean ====
/-
  The kernel and its reference compute the same function of the `[512, 4, 8]` argument `x`: the flattened outer
  product of the eight columns of each row's 4 × 8 matrix. Entry `(b, k)` of the `[512, 65536]` result, with `k`
  written in base 4 as `(m₀ m₁ … m₇)₄`, is the left-nested product

      ((x[b, m₀, 0] · x[b, m₁, 1]) · x[b, m₂, 2]) · … · x[b, m₇, 7]

  (`Cert.DigitProduct.product`). Both programs build it column by column, multiplying the running product on the
  left by the next column on the right, so the two sides are the same nested product of extended reals: no
  reassociation, no commutation, and hence no use of the inputs' finiteness.

  The kernel tiles the batch into 32 blocks of 16 rows; each grid point computes the product of its own rows
  (Proof/KernelBlock.lean) and, a row's product depending on that row alone, writes back its block of the whole
  product (Proof/KernelProduct.lean). The reference computes the product of all 512 rows at once
  (Proof/ReferenceProduct.lean). The one step both spell — in vector operations and in host operations — and the
  base-4 recursion are in Proof/DigitProduct.lean. The three frames are the generated ones; the idealization
  rewrote nothing, so `preserves` is trivial.
-/
import proofs.«143962_j66692252172661_1_alg».proof.Defs
import proofs.«143962_j66692252172661_1_alg».proof.Proof.Gen.Kernel
import proofs.«143962_j66692252172661_1_alg».proof.Proof.Gen.Kernel.Skeleton
import proofs.«143962_j66692252172661_1_alg».proof.Proof.Gen.Kernel.Launch
import proofs.«143962_j66692252172661_1_alg».proof.Proof.Gen.Kernel.Points
import proofs.«143962_j66692252172661_1_alg».proof.Proof.Gen.Kernel.Frame
import proofs.«143962_j66692252172661_1_alg».proof.Proof.Gen.KernelIdeal
import proofs.«143962_j66692252172661_1_alg».proof.Proof.Gen.KernelIdeal.Skeleton
import proofs.«143962_j66692252172661_1_alg».proof.Proof.Gen.KernelIdeal.Launch
import proofs.«143962_j66692252172661_1_alg».proof.Proof.Gen.KernelIdeal.Points
import proofs.«143962_j66692252172661_1_alg».proof.Proof.Gen.KernelIdeal.Frame
import proofs.«143962_j66692252172661_1_alg».proof.Proof.Gen.ReferenceIdeal
import proofs.«143962_j66692252172661_1_alg».proof.Proof.Gen.KernelIdeal.Value
import proofs.«143962_j66692252172661_1_alg».proof.Proof.Gen.ReferenceIdeal.Run
import proofs.«143962_j66692252172661_1_alg».proof.Proof.Gen.Pre_finite_inputs
import proofs.«143962_j66692252172661_1_alg».proof.Proof.KernelProduct
import proofs.«143962_j66692252172661_1_alg».proof.Proof.ReferenceProduct
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its argument unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result array at the digit product of the argument; from memories that
    agree on the argument the two results are the same array. -/
theorem algebraic : Cert.algebraic_KernelIdeal_ReferenceIdeal := by
  intro m ρ m' ρ' _ hagree
  refine ⟨_, Cert.KernelIdeal.Product.run m ρ, ?_⟩
  refine (θ_run Cert.ReferenceIdeal.defs _ _).mono (fun _ h c => ⟨(h c).1.trans ?_, (h c).2⟩)
    (Cert.ReferenceIdeal.Product.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
